-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S128x256 : Shape := ⟨2, ![128, 256]⟩
abbrev S128x128 : Shape := ⟨2, ![128, 128]⟩
abbrev S128x64 : Shape := ⟨2, ![128, 64]⟩
abbrev S128x1x64 : Shape := ⟨3, ![128, 1, 64]⟩
abbrev S1x128x64 : Shape := ⟨3, ![1, 128, 64]⟩
abbrev S128x128x64 : Shape := ⟨3, ![128, 128, 64]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x256_0_0 : ∀ a, (![0, 0] : Fin 2 → Nat) a + S128x256.size a ≤ S128x256.size a
  h_S128x256 : 0 < S128x256.numel
  slices_S128x256_o0_0_S128x64 : S128x256.Slices ![0, 0] S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  slices_S128x256_o0_64_S128x64 : S128x256.Slices ![0, 64] S128x64
  slices_S128x256_o0_128_S128x64 : S128x256.Slices ![0, 128] S128x64
  slices_S128x256_o0_192_S128x64 : S128x256.Slices ![0, 192] S128x64
  inb_S128x128_S128x128_0_0 : ∀ a, (![0, 0] : Fin 2 → Nat) a + S128x128.size a ≤ S128x128.size a
  h_S128x128 : 0 < S128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x1x256, .f32⟩
  | .hbm, ⟨5, _⟩ => ⟨S1x1024x256, .f32⟩
  | .hbm, ⟨6, _⟩ => ⟨S1024x1024x256, .f32⟩
  | .hbm, ⟨7, _⟩ => ⟨S1024x1024x256, .f32⟩
  | .hbm, ⟨8, _⟩ => ⟨S1024x1024x256, .f32⟩
  | .hbm, ⟨9, _⟩ => ⟨S_, .f32⟩
  | .hbm, ⟨10, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel

variable [Facts₀]

class Facts : Prop extends Facts₀ where

variable [Facts]
-- ==== Proof.MaxPlus.lean ====
/-
  The max-plus ("tropical") product of two matrices of absolute values, as ONE function of the two argument
  arrays: entry (n, m) of the result is the maximum, taken from −∞, over the 256 columns k of |x[n,k]| + |w[m,k]|
  on the extended reals. Beside it the one law the certificate rests on: a maximum over 256 columns, taken from a
  starting value b, is the running maximum from b of the four maxima over the column runs 0..63, 64..127, 128..191
  and 192..255, each itself taken from b. It holds in any linear order (a maximum is characterised by its upper
  bounds, and b is an upper-bound condition on both sides), so nothing about finiteness of the entries is used.
-/
import Idealize.ShloMosaic.PureOps.Ideal
import Idealize.ShloMosaic.Lib.ValueIdx
import Mathlib.Data.Finset.Fold

noncomputable section

namespace Cert.MaxPlus

open Idealize.ShloMosaic Idealize.ShloMosaic.ValueIdx

/-- Both factors: 1024 rows of 256 columns. -/
abbrev SIn : Shape := ⟨2, ![1024, 256]⟩
/-- The product: 1024 by 1024. -/
abbrev SOut : Shape := ⟨2, ![1024, 1024]⟩

/-- The absolute value of an extended real as both programs take it: max x (−x). -/
abbrev av (x : EReal) : EReal := FloatOps.absf (F := Ideal) (φ := .f32) x

/-- One term of entry (n, m): |x[n,k]| + |w[m,k]|. -/
def term (x w : FVec Ideal SIn .f32) (n m : Fin 1024) (k : Fin 256) : EReal :=
  av (x (ix2 n k)) + av (w (ix2 m k))

/-- The starting value of every maximum here: what the f32 word of −∞ denotes. The same word stands on both
    sides, so it is never evaluated. -/
abbrev start : EReal := Ideal.ofBits .f32 0xFF800000#32

/-- The max-plus product: entry (n, m) is the maximum from `start` over k of `term x w n m k`. -/
def G (x w : FVec Ideal SIn .f32) : FVec Ideal SOut .f32 :=
  fun i => (Finset.univ : Finset (Fin 256)).fold max start (term x w (i 0) (i 1))

theorem G_apply (x w : FVec Ideal SIn .f32) (n m : Fin 1024) :
    G x w (ix2 n m) = (Finset.univ : Finset (Fin 256)).fold max start (term x w n m) := rfl

/-- Column o + j of a row: the j-th column of the run of 64 columns that starts at column o. -/
def shift (o : Nat) (ho : o + 64 ≤ 256) (j : Fin 64) : Fin 256 := ⟨o + j.val, by have := j.isLt; omega⟩

theorem shift_val (o : Nat) (ho : o + 64 ≤ 256) (j : Fin 64) : (shift o ho j).val = o + j.val := rfl

/-- A maximum over 256 columns from b is the running maximum, from b, of the maxima over the four runs of 64
    columns (starting at columns 0, 64, 128 and 192), each from b: both sides are below c exactly when b and every
    f k are. -/
theorem fold_max_four_runs {α : Type} [LinearOrder α] (b : α) (f : Fin 256 → α)
    (h0 : 0 + 64 ≤ 256) (h1 : 64 + 64 ≤ 256) (h2 : 128 + 64 ≤ 256) (h3 : 192 + 64 ≤ 256) :
    max (max (max (max b ((Finset.univ : Finset (Fin 64)).fold max b fun j => f (shift 0 h0 j)))
          ((Finset.univ : Finset (Fin 64)).fold max b fun j => f (shift 64 h1 j)))
        ((Finset.univ : Finset (Fin 64)).fold max b fun j => f (shift 128 h2 j)))
      ((Finset.univ : Finset (Fin 64)).fold max b fun j => f (shift 192 h3 j))
    = (Finset.univ : Finset (Fin 256)).fold max b f := by
  refine eq_of_forall_ge_iff fun c => ?_
  simp only [max_le_iff, Finset.fold_max_le]
  constructor
  · rintro ⟨⟨⟨⟨hb, -, r0⟩, -, r1⟩, -, r2⟩, -, r3⟩
    refine ⟨hb, fun k _ => ?_⟩
    have hk := k.isLt
    rcases (by omega : k.val < 64 ∨ (64 ≤ k.val ∧ k.val < 128) ∨ (128 ≤ k.val ∧ k.val < 192) ∨ 192 ≤ k.val)
      with h | h | h | h
    · have e : shift 0 h0 ⟨k.val, h⟩ = k := Fin.ext (by show 0 + k.val = k.val; omega)
      have := r0 ⟨k.val, h⟩ (Finset.mem_univ _); rwa [e] at this
    · have e : shift 64 h1 ⟨k.val - 64, by omega⟩ = k := Fin.ext (by show 64 + (k.val - 64) = k.val; omega)
      have := r1 ⟨k.val - 64, by omega⟩ (Finset.mem_univ _); rwa [e] at this
    · have e : shift 128 h2 ⟨k.val - 128, by omega⟩ = k := Fin.ext (by show 128 + (k.val - 128) = k.val; omega)
      have := r2 ⟨k.val - 128, by omega⟩ (Finset.mem_univ _); rwa [e] at this
    · have e : shift 192 h3 ⟨k.val - 192, by omega⟩ = k := Fin.ext (by show 192 + (k.val - 192) = k.val; omega)
      have := r3 ⟨k.val - 192, by omega⟩ (Finset.mem_univ _); rwa [e] at this
  · rintro ⟨hb, hall⟩
    exact ⟨⟨⟨⟨hb, hb, fun j _ => hall _ (Finset.mem_univ _)⟩, hb, fun j _ => hall _ (Finset.mem_univ _)⟩,
      hb, fun j _ => hall _ (Finset.mem_univ _)⟩, hb, fun j _ => hall _ (Finset.mem_univ _)⟩

end Cert.MaxPlus

end
-- ==== Proof.RunMax.lean ====
/-
  One run of 64 columns of the kernel's body, read at an entry (p, q) of the 128 × 128 block.
  The body takes columns o .. o+63 of two 128 × 256 blocks A and B, lays the first out as [128, 1, 64] and the
  second as [1, 128, 64], broadcasts both to [128, 128, 64], adds them and takes the maximum over the last axis from
  −∞. At (p, q) the broadcasts read row p of A and row q of B, so the result is the maximum from −∞ over the 64
  columns j of A[p, o+j] + B[q, o+j].
-/
import proofs.«130293_j9251359556271_1_alg».proof.Proof.MaxPlus
import Idealize.ShloMosaic.PureOps.Ideal.Laws
import Idealize.ShloMosaic.Lib.Pipeline.Value
import Idealize.ShloMosaic.Lib.ValueLayout

noncomputable section

namespace Cert.MaxPlus

open Idealize.ShloMosaic Idealize.ShloMosaic.ValueIdx

abbrev B128x256 : Shape := ⟨2, ![128, 256]⟩
abbrev B128x128 : Shape := ⟨2, ![128, 128]⟩
abbrev B128x64 : Shape := ⟨2, ![128, 64]⟩
abbrev B128x1x64 : Shape := ⟨3, ![128, 1, 64]⟩
abbrev B1x128x64 : Shape := ⟨3, ![1, 128, 64]⟩
abbrev B128x128x64 : Shape := ⟨3, ![128, 128, 64]⟩

/-- Row p of A, columns o .. o+63, as the [128, 128, 64] array the body adds: entry (p, q, j) is A[p, o+j]. -/
theorem rows_apply (o : Nat) (ho : o + 64 ≤ 256) (A : FVec Ideal B128x256 .f32)
    (hs : B128x256.Slices ![0, o] B128x64) (hc : B128x64.ShapeCasts B128x1x64)
    (hb : B128x1x64.Broadcasts B128x128x64) (p q : Fin 128) (j : Fin 64) :
    broadcastTo B128x128x64 (shapeCast B128x1x64 (extractStridedSlice B128x64 ![0, o] A hs) hc) hb (ix3 p q j)
      = A (ix2 p (shift o ho j)) := by
  refine (broadcastTo_apply _ hb _ (ix3 p (0 : Fin 1) j) fun a => ?_).trans ?_
  · match a with
    | ⟨0, _⟩ => rfl
    | ⟨1, _⟩ => rfl
    | ⟨2, _⟩ => rfl
  refine (shapeCast_apply _ hc _ (ix2 p j) ?_).trans ?_
  · rw [Shape.rowMajor_val_two, Shape.rowMajor_val_three]
    show p.val * 64 + j.val = (p.val * 1 + 0) * 64 + j.val
    omega
  exact slice2_axis1_apply o A hs p j (shift o ho j) rfl

/-- Row q of B, columns o .. o+63, as the [128, 128, 64] array the body adds: entry (p, q, j) is B[q, o+j]. -/
theorem cols_apply (o : Nat) (ho : o + 64 ≤ 256) (B : FVec Ideal B128x256 .f32)
    (hs : B128x256.Slices ![0, o] B128x64) (hc : B128x64.ShapeCasts B1x128x64)
    (hb : B1x128x64.Broadcasts B128x128x64) (p q : Fin 128) (j : Fin 64) :
    broadcastTo B128x128x64 (shapeCast B1x128x64 (extractStridedSlice B128x64 ![0, o] B hs) hc) hb (ix3 p q j)
      = B (ix2 q (shift o ho j)) := by
  refine (broadcastTo_apply _ hb _ (ix3 (0 : Fin 1) q j) fun a => ?_).trans ?_
  · match a with
    | ⟨0, _⟩ => rfl
    | ⟨1, _⟩ => rfl
    | ⟨2, _⟩ => rfl
  refine (shapeCast_ab_1ab_apply _ hc (0 : Fin 1) q j).trans ?_
  exact slice2_axis1_apply o B hs q j (shift o ho j) rfl

/-- The run's maximum at (p, q): the maximum from −∞ over its 64 columns of A[p, o+j] + B[q, o+j]. -/
theorem run_apply (o : Nat) (ho : o + 64 ≤ 256) (A B : FVec Ideal B128x256 .f32)
    (hs : B128x256.Slices ![0, o] B128x64) (hc1 : B128x64.ShapeCasts B128x1x64) (hc2 : B128x64.ShapeCasts B1x128x64)
    (hb1 : B128x1x64.Broadcasts B128x128x64) (hb2 : B1x128x64.Broadcasts B128x128x64)
    (hr : B128x128x64.Reduces [2] B128x128) (hφ : FKind.Formats .f32)
    (hacc : (0xFF800000#32 : BitVec 32) = FKind.maximumf.neutral .f32 hφ) (p q : Fin 128) :
    multiReduction .maximumf [2] B128x128
        (addf (broadcastTo B128x128x64 (shapeCast B128x1x64 (extractStridedSlice B128x64 ![0, o] A hs) hc1) hb1)
          (broadcastTo B128x128x64 (shapeCast B1x128x64 (extractStridedSlice B128x64 ![0, o] B hs) hc2) hb2))
        0xFF800000#32 hr hφ hacc (ix2 p q)
      = (Finset.univ : Finset (Fin 64)).fold max start
          (fun j => A (ix2 p (shift o ho j)) + B (ix2 q (shift o ho j))) := by
  rw [Ideal.multiReduction_maximumf_single]
  refine congrArg (fun f => (Finset.univ : Finset (Fin 64)).fold max start f) (funext fun (j : Fin 64) => ?_)
  have e : hr.lift (ix2 p q) j = ix3 p q j := funext fun a => Fin.ext (by
    match a with
    | ⟨0, _⟩ => rfl
    | ⟨1, _⟩ => rfl
    | ⟨2, _⟩ => rfl)
  show addf _ _ (hr.lift (ix2 p q) j) = _
  rw [e]
  exact congrArg₂ (· + ·) (rows_apply o ho A hs hc1 hb1 p q j) (cols_apply o ho B hs hc2 hb2 p q j)

end Cert.MaxPlus

end
-- ==== Proof.KernelBlock.lean ====
/-
  What the kernel body stores at entry (p, q) of its 128 × 128 output block, as a function of the two 128 × 256
  input blocks x0 (rows of x) and x1 (rows of w): the running maximum, from −∞, of the four run maxima over the
  column runs 0..63, 64..127, 128..191, 192..255 of |x0[p,k]| + |x1[q,k]| — which is the maximum from −∞ over all
  256 columns k (the four-runs law).
-/
import proofs.«130293_j9251359556271_1_alg».proof.Proof.Gen.KernelIdeal.Value
import proofs.«130293_j9251359556271_1_alg».proof.Proof.RunMax

noncomputable section

namespace Cert.KernelIdeal.Block

open Cert.KernelIdeal Cert.KernelIdeal.Gen Idealize.ShloMosaic Idealize.ShloMosaic.ValueIdx Cert.MaxPlus

/-- The stored value at (p, q): the maximum from −∞ over k of |x0[p,k]| + |x1[q,k]|. The stored vector is the
    tree of four pointwise maxima over the −∞ splat and the four run maxima; read at (p, q), each run maximum is
    the maximum over its 64 columns (`run_apply`), and the four-runs law joins them. -/
theorem pay_apply (x0 x1 : Vec Ideal S128x256 .f32) (p q : Fin 128) :
    k0_pay1 (F := Ideal) x0 x1 (ix2 p q)
      = (Finset.univ : Finset (Fin 256)).fold max start (fun k => av (x0 (ix2 p k)) + av (x1 (ix2 q k))) := by
  rw [Value.lay2_0_eq, maximumf_apply, maximumf_apply, maximumf_apply, maximumf_apply, broadcast_apply]
  rw [run_apply 0 (by omega) (absf x0) (absf x1) slices_S128x256_o0_0_S128x64 shapeCasts_S128x64_S128x1x64
      shapeCasts_S128x64_S1x128x64 broadcasts_S128x1x64_S128x128x64 broadcasts_S1x128x64_S128x128x64
      reduces_S128x128x64_S128x128 (.inl rfl) rfl p q,
    run_apply 64 (by omega) (absf x0) (absf x1) slices_S128x256_o0_64_S128x64 shapeCasts_S128x64_S128x1x64
      shapeCasts_S128x64_S1x128x64 broadcasts_S128x1x64_S128x128x64 broadcasts_S1x128x64_S128x128x64
      reduces_S128x128x64_S128x128 (.inl rfl) rfl p q,
    run_apply 128 (by omega) (absf x0) (absf x1) slices_S128x256_o0_128_S128x64 shapeCasts_S128x64_S128x1x64
      shapeCasts_S128x64_S1x128x64 broadcasts_S128x1x64_S128x128x64 broadcasts_S1x128x64_S128x128x64
      reduces_S128x128x64_S128x128 (.inl rfl) rfl p q,
    run_apply 192 (by omega) (absf x0) (absf x1) slices_S128x256_o0_192_S128x64 shapeCasts_S128x64_S128x1x64
      shapeCasts_S128x64_S1x128x64 broadcasts_S128x1x64_S128x128x64 broadcasts_S1x128x64_S128x128x64
      reduces_S128x128x64_S128x128 (.inl rfl) rfl p q]
  exact fold_max_four_runs start (fun k => av (x0 (ix2 p k)) + av (x1 (ix2 q k))) _ _ _ _

end Cert.KernelIdeal.Block

end
-- ==== Proof.KernelArray.lean ====
/-
  From blocks to the array. The grid has 8 × 8 points; point (i, j) reads rows 128·i .. 128·i+127 of x (all 256
  columns), rows 128·j .. 128·j+127 of w, and writes the 128 × 128 block (i, j) of the result. Entry (p, q) of what it
  writes is the maximum over k of |x[128·i+p, k]| + |w[128·j+q, k]|, which is entry (128·i+p, 128·j+q) of the max-plus
  product G of the whole arrays; the 64 blocks tile the 1024 × 1024 result, so after the run the result array is G.
-/
import proofs.«130293_j9251359556271_1_alg».proof.Proof.Gen.KernelIdeal.Value
import proofs.«130293_j9251359556271_1_alg».proof.Proof.KernelBlock
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.MaxPlus
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices at a grid point, decided over the 64 points: x's block row is the output's block row, w's
    block row is the output's block column, both inputs take all columns, and the output's block indices are below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some grid point's. -/
theorem every_block : ∀ (a b : Fin 8), ∃ t : Fin cfg0.N, win0_2.index t = ![a.val, b.val] :=
  (by decide +kernel : ∀ (a b : Fin 8), ∃ t : Fin grid0.N, win0_2.index t = ![a.val, b.val])

/-- What point t writes back is block t of G of the argument arrays. -/
theorem flushed_eq (c : Dev nD) (t : Fin cfg0.N) :
    (dats m 0 c).flushed 2 t
      = ((cfg0.win 2).blk t).view.read (Elt Ideal) (G (V m c main_arg0) (V m c main_arg1)) := by
  rw [Value.flushed2]
  unfold out0_2
  rw [View.canon_unit_zero origin]
  simp only [View.ld_unit_zero (S := S128x256) origin]
  obtain ⟨e0, e1, e2, e3, -, -⟩ := block_indices t
  funext y
  obtain ⟨p, q, rfl⟩ : ∃ (p q : Fin 128), y = ix2 p q := ⟨y 0, y 1, eq_ix2 y⟩
  show k0_pay1 (F := Ideal) (iblk m c 0 t) (iblk m c 1 t) (ix2 p q)
    = G (V m c main_arg0) (V m c main_arg1) (((cfg0.win 2).blk t).view.emb (ix2 p q))
  refine (Block.pay_apply (iblk m c 0 t) (iblk m c 1 t) p q).trans ?_
  refine congrArg (fun f => (Finset.univ : Finset (Fin 256)).fold max start f) (funext fun (k : Fin 256) => ?_)
  show av (V m c main_arg0 (((cfg0.win 0).blk t).view.emb (ix2 p k)))
        + av (V m c main_arg1 (((cfg0.win 1).blk t).view.emb (ix2 q k)))
      = av (V m c main_arg0 (ix2 ((((cfg0.win 2).blk t).view.emb (ix2 p q)) 0) k))
        + av (V m c main_arg1 (ix2 ((((cfg0.win 2).blk t).view.emb (ix2 p q)) 1) k))
  have h0 : ((cfg0.win 0).blk t).view.emb (ix2 p k) = ix2 ((((cfg0.win 2).blk t).view.emb (ix2 p q)) 0) k := by
    funext a; apply Fin.ext
    match a with
    | ⟨0, _⟩ =>
      show win0_0.index t (0 : Fin 2) * 128 + 1 * p.val = win0_2.index t (0 : Fin 2) * 128 + 1 * p.val
      omega
    | ⟨1, _⟩ =>
      show win0_0.index t (1 : Fin 2) * 256 + 1 * k.val = k.val
      omega
  have h1 : ((cfg0.win 1).blk t).view.emb (ix2 q k) = ix2 ((((cfg0.win 2).blk t).view.emb (ix2 p q)) 1) k := by
    funext a; apply Fin.ext
    match a with
    | ⟨0, _⟩ =>
      show win0_1.index t (0 : Fin 2) * 128 + 1 * q.val = win0_2.index t (1 : Fin 2) * 128 + 1 * q.val
      omega
    | ⟨1, _⟩ =>
      show win0_1.index t (1 : Fin 2) * 256 + 1 * k.val = k.val
      omega
  rw [h0, h1]
  rfl

/-- An index of the result is in point t's block iff each coordinate is in the block's range on its axis. -/
theorem mem_blk (t : Fin cfg0.N) (i : S1024x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- Every index of the result is in some point's block: the one with block row i₀ / 128 and block column i₁ / 128. -/
theorem covered (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := every_block ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- The result array after the run is G of the argument arrays as launched. -/
theorem final (c : Dev nD) :
    (dats m 0 c).arrAt 2 cfg0.N
      = G (m ((c : Thread nD τ).loc main_arg0)) (m ((c : Thread nD τ).loc main_arg1)) :=
  (dats m 0 c).arrAt_eq_of_cover 2 (G (V m c main_arg0) (V m c main_arg1)) (fun t _ => flushed_eq m c t) covered

/-- The kernel's run: it terminates with the result array at G of the arguments and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result is the max-plus product G of its two arguments.
  The reference takes |x| and |w|, lays them out as [1024, 1, 256] and [1, 1024, 256], broadcasts both to
  [1024, 1024, 256], adds them and reduces by max over the last axis from −∞. At (n, m) the reduction is the maximum
  from −∞ over the 256 coordinates k of the sum at (n, m, k), and the two broadcasts read x at (n, k) and w at (m, k):
  entry (n, m) is the maximum over k of |x[n,k]| + |w[m,k]|.
-/
import proofs.«130293_j9251359556271_1_alg».proof.Proof.Gen.ReferenceIdeal.Read
import proofs.«130293_j9251359556271_1_alg».proof.Proof.MaxPlus
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.MaxPlus

/-- The reduction's shape fact in the form that names the index with a coordinate inserted on the reduced axis. -/
theorem reduces_last : S1024x1024x256.Reduces [2] S1024x1024 := by decide

/-- The last stage of the reference, index by index, is G. -/
theorem result_eq (x w : FVec Ideal S1024x256 .f32) : val_main_v7 (F := Ideal) x w = G x w := by
  funext i
  obtain ⟨n, r, rfl⟩ : ∃ (n r : Fin 1024), i = ix2 n r := ⟨i 0, i 1, eq_ix2 i⟩
  unfold val_main_v7
  rw [Host.reduce_eq_fold_single FloatOps.maximumf _ _ reducesTo_S1024x1024x256_S1024x1024_d2 reduces_last h_S_ (ix2 n r)]
  refine congrArg (fun f => (Finset.univ : Finset (Fin 256)).fold max start f) (funext fun (k : Fin 256) => ?_)
  have e : reduces_last.lift (ix2 n r) k = ix3 n r k := funext fun a => Fin.ext (by
    match a with
    | ⟨0, _⟩ => rfl
    | ⟨1, _⟩ => rfl
    | ⟨2, _⟩ => rfl)
  show val_main_v6 (F := Ideal) x w (reduces_last.lift (ix2 n r) k) = term x w n r k
  rw [e, val_main_v6_apply, val_main_v4_apply, val_main_v2_apply, val_main_v0_apply, val_main_v5_apply,
    val_main_v3_apply, val_main_v1_apply]
  have i0 : idx_main_v2 (idx_main_v4 (ix3 n r k)) = ix2 n k := funext fun a => Fin.ext (by
    match a with
    | ⟨0, _⟩ => rfl
    | ⟨1, _⟩ => rfl)
  have i1 : idx_main_v3 (idx_main_v5 (ix3 n r k)) = ix2 r k := funext fun a => Fin.ext (by
    match a with
    | ⟨0, _⟩ => rfl
    | ⟨1, _⟩ => rfl)
  rw [i0, i1]
  rfl

end Cert.ReferenceIdeal.RefValue

end
-- ==== Proof.lean ====
/-
  A max-plus ("tropical") matrix product: out[n, m] = max over k of |x[n,k]| + |w[m,k]|, for x and w of 1024 rows and
  256 columns.

  The kernel tiles the 1024 × 1024 result into 8 × 8 blocks of 128 × 128. For one block it loads 128 rows of x and
  128 rows of w, and takes the maximum over the 256 columns in four runs of 64: each run's maximum is taken from −∞
  and folded into a running maximum that also starts at −∞. The reference forms the whole [1024, 1024, 256] array of
  sums and reduces it by max over the last axis from −∞.

  On the extended reals both are the same function G of the argument arrays (Proof/MaxPlus.lean): a maximum over
  256 columns taken from b equals the running maximum from b of the four run maxima from b, because both are below a
  bound c exactly when b and all 256 terms are. This uses only that max is the least upper bound in a linear order,
  so the precondition (finite inputs) is not used by the value claim. No operation of the kernel is replaced for the
  reading on the extended reals, so the statement relating the two readings of the kernel is trivially true.

  Modules: MaxPlus (G and the four-runs law), RunMax (one run of the body at a block entry), KernelBlock (the stored
  value at a block entry), KernelArray (the blocks tile the result, so the kernel's run ends at G), RefValue (the
  reference's last stage is G).
-/
import proofs.«130293_j9251359556271_1_alg».proof.Defs
import proofs.«130293_j9251359556271_1_alg».proof.Proof.Gen.Kernel
import proofs.«130293_j9251359556271_1_alg».proof.Proof.Gen.Kernel.Skeleton
import proofs.«130293_j9251359556271_1_alg».proof.Proof.Gen.Kernel.Launch
import proofs.«130293_j9251359556271_1_alg».proof.Proof.Gen.Kernel.Points
import proofs.«130293_j9251359556271_1_alg».proof.Proof.Gen.Kernel.Frame
import proofs.«130293_j9251359556271_1_alg».proof.Proof.Gen.KernelIdeal
import proofs.«130293_j9251359556271_1_alg».proof.Proof.Gen.KernelIdeal.Skeleton
import proofs.«130293_j9251359556271_1_alg».proof.Proof.Gen.KernelIdeal.Launch
import proofs.«130293_j9251359556271_1_alg».proof.Proof.Gen.KernelIdeal.Points
import proofs.«130293_j9251359556271_1_alg».proof.Proof.Gen.KernelIdeal.Frame
import proofs.«130293_j9251359556271_1_alg».proof.Proof.Gen.ReferenceIdeal
import proofs.«130293_j9251359556271_1_alg».proof.Proof.Gen.Pre_finite_inputs
import proofs.«130293_j9251359556271_1_alg».proof.Proof.Gen.KernelIdeal.Value
import proofs.«130293_j9251359556271_1_alg».proof.Proof.Gen.ReferenceIdeal.Run
import proofs.«130293_j9251359556271_1_alg».proof.Proof.Gen.ReferenceIdeal.Read
import proofs.«130293_j9251359556271_1_alg».proof.Proof.KernelArray
import proofs.«130293_j9251359556271_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on x and w, end with the result array at the max-plus product G of
    x and w: the kernel block by block (`Whole.run`), the reference by its last stage (`RefValue.result_eq`). -/
theorem algebraic : Cert.algebraic_KernelIdeal_ReferenceIdeal := by
  intro m ρ m' ρ' _ hagree
  refine ⟨fun c => Cert.MaxPlus.G (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v7_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
